-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S256x10000 : Shape := ⟨2, ![256, 10000]⟩
abbrev S256x128 : Shape := ⟨2, ![256, 128]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .hbm, ⟨6, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S10000x128, .f32⟩
  | .local _ .vmem, ⟨4, _⟩ => ⟨S1x128, .f32⟩
  | .local _ .vmem, ⟨5, _⟩ => ⟨S256x10000, .f32⟩
  | .local _ .vmem, ⟨6, _⟩ => ⟨S256x10000, .f32⟩
  | .local _ .vmem, ⟨7, _⟩ => ⟨S256x128, .f32⟩
  | .local _ .vmem, ⟨8, _⟩ => ⟨S256x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S256x10000_S256x10000_0_0 : ∀ a, (![0, 0] : Fin 2 → Nat) a + S256x10000.size a ≤ S256x10000.size a
  h_S256x10000 : 0 < S256x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S10000x128_S128x128_S10000x128_1_0_0_1_n_n_wf : DotDims.WF S10000x128 S128x128 S10000x128 [1] [0] [0] [1] [] []
  dot_S256x10000_S10000x128_S256x128_1_0_0_1_n_n_wf : DotDims.WF S256x10000 S10000x128 S256x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S256x10000.size a < S10000x10000.size a
  hwx1_2 : ∀ i : grid1.Coords, EltTy.bits .f32 = 32 ∨ (Rect.unit (s := S10000x10000) (fun a => cc1_transform_2 i a * S256x10000.size a) (fun a => (Pipeline.Clip.of (cc1_transform_2 i a) (S256x10000.size a) (S10000x10000.size a)).extent (S256x10000.size a)) fun a => Pipeline.Clip.inb (Pipeline.Clip.ok_of (hstart1_2 i a))).WholeWords (EltTy.packing .f32)
  hwxs1_2 : ∀ i : grid1.Coords, EltTy.bits .f32 = 32 ∨ (Rect.unit (s := S256x10000) (fun _ => 0) (fun a => (Pipeline.Clip.of (cc1_transform_2 i a) (S256x10000.size a) (S10000x10000.size a)).extent (S256x10000.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S256x128.size a < S10000x128.size a
  hwx1_3 : ∀ i : grid1.Coords, EltTy.bits .f32 = 32 ∨ (Rect.unit (s := S10000x128) (fun a => cc1_transform_3 i a * S256x128.size a) (fun a => (Pipeline.Clip.of (cc1_transform_3 i a) (S256x128.size a) (S10000x128.size a)).extent (S256x128.size a)) fun a => Pipeline.Clip.inb (Pipeline.Clip.ok_of (hstart1_3 i a))).WholeWords (EltTy.packing .f32)
  hwxs1_3 : ∀ i : grid1.Coords, EltTy.bits .f32 = 32 ∨ (Rect.unit (s := S256x128) (fun _ => 0) (fun a => (Pipeline.Clip.of (cc1_transform_3 i a) (S256x128.size a) (S10000x128.size a)).extent (S256x128.size a)) fun a => (Nat.zero_add _).trans_le (Pipeline.Clip.extent_le (Pipeline.Clip.ok_of (hstart1_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v1) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_arg1) S256x10000.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v0) S256x128.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
import Idealize.ShloMosaic.PureOps.Ideal
import Idealize.ShloMosaic.Lib.ValueIdx

/-! The graph-convolution layer as one function of its four arrays, over the extended reals.

The feature product is support k c = sum over j of x k j * w j c, and the layer's result at row r, column c is
max (sum over k of a r k * support k c + b c) 0: each node's row of the adjacency matrix weights the support rows,
the bias is added per output feature, and negative values are clipped at zero. -/

noncomputable section

namespace Cert.Spec

open Idealize.ShloMosaic Idealize.ShloMosaic.ValueIdx

abbrev SX : Shape := ⟨2, ![10000, 128]⟩
abbrev SA : Shape := ⟨2, ![10000, 10000]⟩
abbrev SW : Shape := ⟨2, ![128, 128]⟩
abbrev SB : Shape := ⟨1, ![128]⟩

/-- The feature product x * w at node k, output feature c. -/
def support (x : SX.Idx → EReal) (w : SW.Idx → EReal) (k : Fin 10000) (c : Fin 128) : EReal :=
  ∑ j : Fin 128, x (ix2 k j) * w (ix2 j c)

/-- One entry of the layer before the clip: row r of the adjacency matrix against column c of the support, plus the bias. -/
def pre (x : SX.Idx → EReal) (a : SA.Idx → EReal) (w : SW.Idx → EReal) (b : SB.Idx → EReal) (r : Fin 10000) (c : Fin 128) : EReal :=
  (∑ k : Fin 10000, a (ix2 r k) * support x w k c) + b (ix1 c)

/-- The layer: max (a * (x * w) + b) 0, entry by entry. -/
def G (x : SX.Idx → EReal) (a : SA.Idx → EReal) (w : SW.Idx → EReal) (b : SB.Idx → EReal) : SX.Idx → EReal :=
  fun i => max (pre x a w b (i 0) (i 1)) (Ideal.ofBits .f32 0x00000000#32)

theorem G_apply (x : SX.Idx → EReal) (a : SA.Idx → EReal) (w : SW.Idx → EReal) (b : SB.Idx → EReal) (r : Fin 10000) (c : Fin 128) :
    G x a w b (ix2 r c) = max (pre x a w b r c) (Ideal.ofBits .f32 0x00000000#32) := rfl

end Cert.Spec

end
-- ==== Proof.RefValue.lean ====
import proofs.«126797_g75393855914012_cont_9to1_m_802_10_alg».proof.Defs
import proofs.«126797_g75393855914012_cont_9to1_m_802_10_alg».proof.Proof.Gen.ReferenceIdeal.Run
import proofs.«126797_g75393855914012_cont_9to1_m_802_10_alg».proof.Proof.Gen.ReferenceIdeal.Read
import proofs.«126797_g75393855914012_cont_9to1_m_802_10_alg».proof.Proof.Spec
import Idealize.ShloMosaic.Lib.ValueIdx

/-! The reference program computes the layer of the specification.

The reference is eight host operations: the feature product x * w, the product of the adjacency matrix with it,
the bias broadcast along the rows, their sum, and the maximum with a broadcast zero. Read at one entry (r, c) each
operation is its operands read at entries whose coordinates are r, c and the summation variable, so the last
result at (r, c) is max (sum over k of a r k * (sum over j of x k j * w j c) + b c) 0: the same sums, in the same
order, as the specification's. Nothing of the arithmetic of the extended reals is used. -/

noncomputable section

namespace Cert.ReferenceIdeal.RefValue

open Idealize.ShloMosaic Idealize.ShloMosaic.ValueIdx Cert.ReferenceIdeal Cert.ReferenceIdeal.Gen Cert.ReferenceIdeal.Read

/-! ## The operand entries each operation reads, by coordinates -/

/-- The feature product at (k, c) reads x at (k, j) ... -/
theorem lidx_v0 (k : Fin 10000) (c j : Fin 128) : lidx_main_v0 (ix2 k c) j = ix2 k j :=
  funext fun a => Fin.ext (by match a with | ⟨0, _⟩ => rfl | ⟨1, _⟩ => rfl)

/-- ... and w at (j, c). -/
theorem ridx_v0 (k : Fin 10000) (c j : Fin 128) : ridx_main_v0 (ix2 k c) j = ix2 j c :=
  funext fun a => Fin.ext (by match a with | ⟨0, _⟩ => rfl | ⟨1, _⟩ => rfl)

/-- The product with the adjacency matrix at (r, c) reads a at (r, k) ... -/
theorem lidx_v1 (r k : Fin 10000) (c : Fin 128) : lidx_main_v1 (ix2 r c) k = ix2 r k :=
  funext fun a => Fin.ext (by match a with | ⟨0, _⟩ => rfl | ⟨1, _⟩ => rfl)

/-- ... and the feature product at (k, c). -/
theorem ridx_v1 (r k : Fin 10000) (c : Fin 128) : ridx_main_v1 (ix2 r c) k = ix2 k c :=
  funext fun a => Fin.ext (by match a with | ⟨0, _⟩ => rfl | ⟨1, _⟩ => rfl)

/-- The bias broadcast over the rows reads, at (r, c), the bias at c. -/
theorem idx_v23 (r : Fin 10000) (c : Fin 128) : idx_main_v2 (idx_main_v3 (ix2 r c)) = ix1 c :=
  funext fun a => Fin.ext (by match a with | ⟨0, _⟩ => rfl)

/-! ## The operations at an entry -/

/-- The first product is the specification's feature product. -/
theorem v0_apply (x0 : (⟨S10000x128, .f32⟩ : BufTy).Contents (Elt Ideal)) (x2 : (⟨S128x128, .f32⟩ : BufTy).Contents (Elt Ideal))
    (k : Fin 10000) (c : Fin 128) :
    val_main_v0 (F := Ideal) x0 x2 (ix2 k c) = Cert.Spec.support x0 x2 k c := by
  rw [val_main_v0_apply]
  unfold Cert.Spec.support
  refine Finset.sum_congr rfl fun j _ => ?_
  rw [lidx_v0, ridx_v0]

/-- The second product sums, over the nodes k, the adjacency entry (r, k) times the feature product at (k, c). -/
theorem v1_apply (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (r : Fin 10000) (c : Fin 128) :
    val_main_v1 (F := Ideal) x0 x1 x2 (ix2 r c) = ∑ k : Fin 10000, x1 (ix2 r k) * Cert.Spec.support x0 x2 k c := by
  rw [val_main_v1_apply]
  refine Finset.sum_congr rfl fun k _ => ?_
  rw [lidx_v1, ridx_v1, v0_apply]

/-- The broadcast bias at (r, c) is the bias at c. -/
theorem v3_apply (x3 : (⟨S128, .f32⟩ : BufTy).Contents (Elt Ideal)) (r : Fin 10000) (c : Fin 128) :
    val_main_v3 (F := Ideal) x3 (ix2 r c) = x3 (ix1 c) := by
  rw [val_main_v3_apply, val_main_v2_apply, idx_v23]

/-- The broadcast zero at any entry is the extended real the zero word encodes. -/
theorem zero_apply (i : S10000x128.Idx) :
    val_main_call0_v0 (F := Ideal) i = Ideal.ofBits .f32 0x00000000#32 := by
  rw [val_main_call0_v0_apply, val_main_call0_cst_apply, Ideal.ofBits_def]

/-! ## The reference is the layer -/

/-- The reference's last result, as a function of the four argument arrays, is the specification's layer. -/
theorem ref_eq_G (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = Cert.Spec.G x0 x1 x2 x3 := by
  funext i
  obtain ⟨r, c, rfl⟩ : ∃ (r : Fin 10000) (c : Fin 128), i = ix2 r c := ⟨i 0, i 1, eq_ix2 i⟩
  rw [Cert.Spec.G_apply, val_main_v5_apply, val_main_v4_apply, v1_apply, v3_apply, zero_apply,
    Ideal.maximumf_def, Ideal.addf_def]
  rfl

/-- The same, over the term the reference's run ends at. -/
theorem run_term_eq_G (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    maximumf (F := Ideal) (addf (Host.dotGeneral (φ₁ := .f32) (φ₂ := .f32) dot_S10000x10000_S10000x128_S10000x128_1_0_0_1_n_n none (x1) (Host.dotGeneral (φ₁ := .f32) (φ₂ := .f32) dot_S10000x128_S128x128_S10000x128_1_0_0_1_n_n none (x0) (x2))) (broadcastInDim S10000x128 ![0, 1] bcast_S1x128_S10000x128_0_1 (broadcastInDim S1x128 ![1] bcast_S128_S1x128_1 (x3)))) (broadcastInDim S10000x128 ![] bcast_S_S10000x128 (constant S_ .f32 0x00000000#32))
      = Cert.Spec.G x0 x1 x2 x3 :=
  (val_main_v5_eq (F := Ideal) x0 x1 x2 x3).trans (ref_eq_G x0 x1 x2 x3)

end Cert.ReferenceIdeal.RefValue

end
-- ==== Proof.KIBodies.lean ====
import proofs.«126797_g75393855914012_cont_9to1_m_802_10_alg».proof.Proof.Gen.KernelIdeal.Launch
import proofs.«126797_g75393855914012_cont_9to1_m_802_10_alg».proof.Proof.Gen.KernelIdeal.Skeleton
import proofs.«126797_g75393855914012_cont_9to1_m_802_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The two kernel bodies on whole staging buffers

The first kernel stores the feature product of its two input buffers into its output buffer; the second stores,
from the support buffer, the bias row and a band of adjacency rows, the band's product with the support plus the bias,
clipped at zero. Each is stated over arbitrary contents of its input buffers, so that it applies whatever a clipped
fetch left in the band's tail rows. -/

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rA : Rect S256x10000 := Rect.unit (s := S256x10000) ![0, 0] S256x10000.size inb_S256x10000_S256x10000_0_0
abbrev rO : Rect S256x128 := Rect.unit (s := S256x128) ![0, 0] S256x128.size inb_S256x128_S256x128_0_0

/-- What the first kernel leaves in its output buffer: its one store, of the feature product of the two inputs. -/
def out0 (x : Vec F S10000x128 .f32) (w : Vec F S128x128 .f32) : Vec F S10000x128 .f32 :=
  View.canon [⟨rX, k0_pay1 (View.ld x rX) (View.ld w rW)⟩]

theorem cover0 (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y

/-- What the second kernel leaves in its output buffer: its one store, of the band's rows against the support, plus the bias, clipped at zero. -/
def out1 (s : Vec F S10000x128 .f32) (b : Vec F S1x128 .f32) (a : Vec F S256x10000 .f32) : Vec F S256x128 .f32 :=
  View.canon [⟨rO, k1_pay1 (View.ld a rA) (View.ld s rX) (View.ld b rB)⟩]

theorem cover1 (p0 : Vec F S256x128 .f32) (y : S256x128.Idx) :
    ∃ pc ∈ ([⟨rO, p0⟩] : List (View.Piece (Elt F) S256x128 .f32)), y ∈ pc.1.set :=
  View.cover_of_tiled [⟨rO, p0⟩] S256x128.size (by rfl) y

set_option maxHeartbeats 1000000 in
/-- The first kernel's body: the inputs' buffers are left as found, the output's holds out0 of them. -/
theorem sound_kernel0 (c : Dev nD) (E : Set ℕ) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0 x0 x1)) -∗ K ⟨⟩))
      ⊢ wp frame (wpE (defs₀ (F := F)) Variants.none c none) E (cc0__support_kernel arg0 harg0 arg1 harg1 arg2 harg2) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

set_option maxHeartbeats 1000000 in
/-- The second kernel's body, at any grid point: the three inputs' buffers are left as found, the output's holds out1 of them. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S256x10000 .f32) (harg3 : arg3.IsWhole) (arg4 : Memref sig .tc .vmem S256x128 .f32) (harg4 : arg4.IsWhole)
    (x0 : Vec F S10000x128 .f32) (x1 : Vec F S1x128 .f32) (x2 : Vec F S256x10000 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1 x0 x1 x2)) -∗ K ⟨⟩))
      ⊢ wp frame (wpE (defs₀ (F := F)) Variants.none c none) E (cc1__spmm_kernel i arg1 harg1 arg2 harg2 arg3 harg3 arg4 harg4) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

end Cert.KernelIdeal.Hand

end
-- ==== Proof.KIData0.lean ====
import proofs.«126797_g75393855914012_cont_9to1_m_802_10_alg».proof.Proof.Gen.KernelIdeal.Launch
import proofs.«126797_g75393855914012_cont_9to1_m_802_10_alg».proof.Proof.Gen.KernelIdeal.Skeleton
import proofs.«126797_g75393855914012_cont_9to1_m_802_10_alg».proof.Proof.Gen.KernelIdeal.Points
import proofs.«126797_g75393855914012_cont_9to1_m_802_10_alg».proof.Proof.KIBodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The proof data of the two pipelines, at the contents V the region is entered with

Region 0 has one grid point and whole-array windows: its buffers hold the two input arrays and, after the body, their
feature product. Region 1 walks forty bands of 256 adjacency rows; the last band overhangs the array by 240 rows, so the
band's buffer is known only on the rows inside the array, and so is the output's. -/

section Regions
variable (V : (c : Dev nD) → (b : Ref sig .tc) → Buf (Elt F) ((c : Thread nD τ).loc b))

/-! ## Region 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Region 0's proof data: the arrays as found; after the body the inputs' buffers at their blocks and the output's at their feature product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Region 0's body obligation. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KIData1.lean ====
import proofs.«126797_g75393855914012_cont_9to1_m_802_10_alg».proof.Proof.Gen.KernelIdeal.Launch
import proofs.«126797_g75393855914012_cont_9to1_m_802_10_alg».proof.Proof.Gen.KernelIdeal.Skeleton
import proofs.«126797_g75393855914012_cont_9to1_m_802_10_alg».proof.Proof.Gen.KernelIdeal.Points
import proofs.«126797_g75393855914012_cont_9to1_m_802_10_alg».proof.Proof.KIBodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # Region 1's proof data, with every output row named

Forty bands of 256 adjacency rows; band 39 overhangs the 10000-row array by 240 rows. A fetch of a band lands the rows inside the
array and leaves the rest of the buffer at words nothing names, so the data state the band's buffer, and the output's, on the
rows inside the array only. What the body leaves in an output row depends on the same row of the band alone (rowLocal): the
unnamed tail rows reach no row that is written back. -/

section Regions
variable (V : (c : Dev nD) → (b : Ref sig .tc) → Buf (Elt F) ((c : Thread nD τ).loc b))

/-- Window w's block at point t, read off its array as the region finds it: its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The word the data put in a band's rows past the array's end; nothing reads it. -/
def zfill : S256x10000.Idx → Elt F .f32 := fun _ => Scalar.ofBits .f32 0#32

/-- The band at point t as a whole buffer: the rows inside the array, the rest at zfill. -/
def aband (c : Dev nD) (t : Fin cfg1.N) : S256x10000.Idx → Elt F .f32 :=
  win1_2.fill (grid1.coords t) zfill (iblk1 V c 2 t)

/-- Region 1's proof data: the arrays as found; after the body the support's and the bias's buffers at their blocks, the band's at
    the band, the output's at the body's result of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => aband V c t
    | ⟨3, _⟩ => out1 (iblk1 V c 0 t) (iblk1 V c 1 t) (aband V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = aband V c t := by dsimp only [dat1]
theorem after1_3 (c : Dev nD) (t : Fin cfg1.N) : (dat1 V c).after 3 t = out1 (iblk1 V c 0 t) (iblk1 V c 1 t) (aband V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- The band's buffer is fetched at every point: the rows inside the array hold the band, the rest whatever d was. -/
theorem before1_2 (c : Dev nD) (t : Fin cfg1.N) (d) : (dat1 V c).before 2 t d = win1_2.fill (grid1.coords t) d (iblk1 V c 2 t) := by
  rw [(dat1 V c).before_fetched 2 t (fetch1_2 t) d]; rfl
/-- The output's buffer comes back from a write-back at contents nothing names. -/
theorem before1_3 (c : Dev nD) (t : Fin cfg1.N) (d) : (dat1 V c).before 3 t d = d := by
  refine (dat1 V c).before_out_reset 3 rfl t ?_ d
  by_cases h : t.val = 0
  · exact .inl h
  · exact .inr ⟨h, flush1_3 _⟩

end Regions

end Cert.KernelIdeal.Hand

end
-- ==== Proof.KIFold.lean ====
import proofs.«126797_g75393855914012_cont_9to1_m_802_10_alg».proof.Proof.Gen.KernelIdeal.Launch
import proofs.«126797_g75393855914012_cont_9to1_m_802_10_alg».proof.Proof.Gen.KernelIdeal.Skeleton
import proofs.«126797_g75393855914012_cont_9to1_m_802_10_alg».proof.Proof.Gen.KernelIdeal.Points
import proofs.«126797_g75393855914012_cont_9to1_m_802_10_alg».proof.Proof.KIData0
import proofs.«126797_g75393855914012_cont_9to1_m_802_10_alg».proof.Proof.KIData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The buffers' contents at each boundary of the program

The program is one host operation (the bias as a one-row matrix), then the first kernel region (the support), then the second (the
layer). The contents of every buffer at each boundary are a fold from the launch memory: the host operation's result; then region 0's
arrays at what its one write-back leaves; then region 1's arrays at what its forty write-backs leave. No step writes an argument. -/

variable (m : (ℓ : Loc nD τ sig) → Buf (Elt F) ℓ)

/-- Core c's buffers at launch. -/
abbrev W0 : Dev nD → Valuation τ sig (Elt F) := fun c b => m (c, b)
/-- After the host operation (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The host operation writes the one-row bias buffer only. -/
theorem W1_of_ne (c : Dev nD) (b : Ref sig .tc) (hb : b ≠ main_call0_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_ne m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 2).trans (((dat1 (V2 m) c).arrAt_in 2 rfl _).trans (A_eq1 (V2 m) c 2))
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl
/-- The result array ends at what region 1's forty write-backs leave. -/
theorem W3_main_v0 (c : Dev nD) : W3 m c (Proc.devRef .tc main_v0) = (dat1 (V2 m) c).arrAt 3 cfg1.N := W3_arr m c 3

/-! ## The proof data family -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

end Cert.KernelIdeal.Hand

end
-- ==== Proof.KIOblig1.lean ====
import proofs.«126797_g75393855914012_cont_9to1_m_802_10_alg».proof.Proof.Gen.KernelIdeal.Launch
import proofs.«126797_g75393855914012_cont_9to1_m_802_10_alg».proof.Proof.Gen.KernelIdeal.Skeleton
import proofs.«126797_g75393855914012_cont_9to1_m_802_10_alg».proof.Proof.Gen.KernelIdeal.Points
import proofs.«126797_g75393855914012_cont_9to1_m_802_10_alg».proof.Proof.KIData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # Region 1's body obligation, every output row named

The body is handed the band's buffer at the band on the rows inside the array and at unknown words d elsewhere. What it leaves in the
output's buffer is out1 of that; on the rows that are written back this is out1 of the band with the tail at zfill, because an output
row depends on the same row of the band alone. -/

section Regions
variable (V : (c : Dev nD) → (b : Ref sig .tc) → Buf (Elt F) ((c : Thread nD τ).loc b))

/-- An output row of the second kernel depends on the same row of the band alone. -/
def RowLocal (F : FTy → Type) [FloatOps F] : Prop :=
  ∀ (s : Vec F S10000x128 .f32) (b : Vec F S1x128 .f32) (a a' : Vec F S256x10000 .f32) (j : S256x128.Idx),
    (∀ k : S256x10000.Idx, (k 0).val = (j 0).val → a k = a' k) → out1 s b a j = out1 s b a' j

/-- The band's window and the output's cut alike at every point, and neither is cut along the columns. -/
theorem xsize_facts : ∀ t : Fin cfg1.N, win1_2.xsize (grid1.coords t) 0 = win1_3.xsize (grid1.coords t) 0
    ∧ win1_2.xsize (grid1.coords t) 1 = 10000 :=
  (by decide +kernel : ∀ t : Fin grid1.N, win1_2.xsize (grid1.coords t) 0 = win1_3.xsize (grid1.coords t) 0
    ∧ win1_2.xsize (grid1.coords t) 1 = 10000)

/-- Two fills of the band's buffer agree on every row that the output's write-back moves. -/
theorem fill_row_eq (t : Fin cfg1.N) (d d' : S256x10000.Idx → Elt F .f32) (g : (win1_2.xblock (grid1.coords t)).Idx → Elt F .f32)
    (y : (win1_3.xblock (grid1.coords t)).Idx) (k : S256x10000.Idx) (hk : (k 0).val = ((win1_3.xinj (grid1.coords t) y) 0).val) :
    win1_2.fill (grid1.coords t) d g k = win1_2.fill (grid1.coords t) d' g k := by
  have hm : win1_2.moved (grid1.coords t) k = true := (win1_2.moved_iff _ _).mpr fun a => by
    match a with
    | ⟨0, _⟩ =>
      have h0 := (y 0).isLt
      have := (xsize_facts t).1
      show (k 0).val < win1_2.xsize (grid1.coords t) 0
      rw [this]; rw [hk]; exact h0
    | ⟨1, _⟩ =>
      have h1 := (k 1).isLt
      show (k 1).val < win1_2.xsize (grid1.coords t) 1
      rw [(xsize_facts t).2]; exact h1
  unfold Window.fill
  rw [dif_pos hm, dif_pos hm]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the two cut windows' buffers stated on the rows inside the array. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (∃ d, owns (c : Thread nD τ) (st1_2 t) fullShare (win1_2.fill (grid1.coords t) d (win1_2.cut (grid1.coords t) ((dat1 V c).after 2 t))))
    ∗ (∃ d, owns (c : Thread nD τ) (st1_3 t) fullShare (win1_3.fill (grid1.coords t) d (win1_3.cut (grid1.coords t) ((dat1 V c).after 3 t)))))

set_option maxHeartbeats 1000000 in
/-- The body at any point: the support's and the bias's buffers are left at their blocks, the band's at what was found, the output's at
    out1 of them, which on the rows written back is what the data name. -/
theorem sound_body1 (hloc : RowLocal F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t)
    (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  have h2 : win1_2.fill (grid1.coords t) d2 (win1_2.cut (grid1.coords t) (aband V c t)) = win1_2.fill (grid1.coords t) d2 (iblk1 V c 2 t) := by
    unfold aband; rw [Window.cut_fill]
  have h3 : win1_3.cut (grid1.coords t) (out1 (iblk1 V c 0 t) (iblk1 V c 1 t) (win1_2.fill (grid1.coords t) d2 (iblk1 V c 2 t)))
      = win1_3.cut (grid1.coords t) (out1 (iblk1 V c 0 t) (iblk1 V c 1 t) (aband V c t)) := by
    funext y
    exact hloc _ _ _ _ _ fun k hk => fill_row_eq t d2 zfill (iblk1 V c 2 t) y k hk
  isplitl [H2]
  · iexists d2
    rw [h2]; iexact H2
  · iexists (out1 (iblk1 V c 0 t) (iblk1 V c 1 t) (win1_2.fill (grid1.coords t) d2 (iblk1 V c 2 t)))
    rw [Window.fill_congr_cut _ _ h3]; iexact H3

/-- Region 1's body obligation in the form the loop uses. -/
theorem body_obligation1 (hloc : RowLocal F) (c : Dev nD) :
    BodyObligationLoose (dat1 (F := F) V c) (defs₀ (F := F)) Variants.none () Set.univ := fun t => by
  rw [bigSep_W1, bigSep_W1]
  exact sound_body1 V hloc c t

end Regions

end Cert.KernelIdeal.Hand

end
-- ==== Proof.KIRun.lean ====
import proofs.«126797_g75393855914012_cont_9to1_m_802_10_alg».proof.Proof.Gen.KernelIdeal.Launch
import proofs.«126797_g75393855914012_cont_9to1_m_802_10_alg».proof.Proof.Gen.KernelIdeal.Skeleton
import proofs.«126797_g75393855914012_cont_9to1_m_802_10_alg».proof.Proof.Gen.KernelIdeal.Points
import proofs.«126797_g75393855914012_cont_9to1_m_802_10_alg».proof.Proof.KIFold
import proofs.«126797_g75393855914012_cont_9to1_m_802_10_alg».proof.Proof.KIOblig1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The run of the idealized program

The program's three items — the host operation, region 0, region 1 — as segments over the thread state "every unscoped buffer at the
boundary's contents, the generator register at some state, nothing owed", and the launch over them: every weakly fair execution ends,
with every unscoped buffer at the last boundary's contents. Read at the result array this is what region 1's write-backs leave; read at
an argument it is the launch contents. -/

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator register at some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- Region 0 over the thread state: entered with every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W2, left at W3. -/
def reg1 (hloc : RowLocal F) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V2 m) hloc c
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three items in order. -/
abbrev segs (hloc : RowLocal F) : List (Pipeline.Seg (pcfgs (F := F)) adm (pdats m) () defs₀ 𝒱₀ L lv) :=
  [ .host (hseg hostOps0 hostOps0_sub hostOps0_fresh (W0 m)),
    .region (reg0 m),
    .region (reg1 m hloc) ]
theorem main_run (hloc : RowLocal F) (c : Dev nD) : main (F := F) c = Pipeline.Seg.run (segs m hloc) := (main_chain c).trans (by chain_rfl)

set_option backward.isDefEq.respectTransparency.types false in
/-- Every weakly fair execution of the program ends, and every final state has the result array at what region 1's write-backs leave
    and the four arguments as launched. -/
theorem run_main (hloc : RowLocal F) : θ_run defs (onTc (τ := τ) (main (F := F))) ⟨m, fun _ => 0, ρ⟩ (fun r => ∀ c : Dev nD,
      r.2.mem ((c.tc : Thread nD τ).loc main_v0) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m hloc)
    (fun c Q => by rw [main_run m hloc c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v0 (by decide))).trans (W3_main_v0 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

end Cert.KernelIdeal.Hand

end
-- ==== Proof.KIPayload.lean ====
import proofs.«126797_g75393855914012_cont_9to1_m_802_10_alg».proof.Proof.Gen.KernelIdeal.Launch
import proofs.«126797_g75393855914012_cont_9to1_m_802_10_alg».proof.Proof.Gen.KernelIdeal.Skeleton
import proofs.«126797_g75393855914012_cont_9to1_m_802_10_alg».proof.Proof.Gen.KernelIdeal.Points
import proofs.«126797_g75393855914012_cont_9to1_m_802_10_alg».proof.Proof.KIOblig1
import proofs.«126797_g75393855914012_cont_9to1_m_802_10_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The two kernels' stored values at an index, over the extended reals

The first kernel's store is the feature product: at row k, column c the sum over j of x k j * w j c. The second kernel's store at row p,
column q of a band is the clip at zero of the sum over k of a p k * s k q plus the bias b q. An output row reads the same row of the band
and no other. -/

open Idealize.ShloMosaic.ValueIdx

/-- The whole-buffer rectangles start at the origin. -/
theorem hz : (![0, 0] : Fin 2 → Nat) = fun _ => 0 := funext fun a => by fin_cases a <;> rfl

/-! ## The first product's operand entries

At row r, column c a product reads its left operand at row r and its right operand at column c; the other coordinate of each is the contracted one. -/

theorem lhs0_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs0_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs0_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs0_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The first product into the zero accumulator, at row k and column c: the sum over j of x k j * w j c. -/
theorem matmul0_apply (x : Vec Ideal S10000x128 .f32) (w : Vec Ideal S128x128 .f32) (k : Fin 10000) (c : Fin 128) :
    matmul (F := Ideal) (φ₁ := .f32) (φ₂ := .f32) dot_S10000x128_S128x128_S10000x128_1_0_0_1_n_n none x w (constant S10000x128 .f32 0x00000000#32) (ix2 k c)
      = ∑ j : Fin 128, x (ix2 k j) * w (ix2 j c) := by
  refine (Ideal.matmul_constant_zero_apply dot_S10000x128_S128x128_S10000x128_1_0_0_1_n_n none x w (ix2 k c)).trans ?_
  rw [← Equiv.sum_comp (contrEquiv1 dot_S10000x128_S128x128_S10000x128_1_0_0_1_n_n 128 rfl rfl).symm]
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 k c) ((contrEquiv1 dot_S10000x128_S128x128_S10000x128_1_0_0_1_n_n 128 rfl rfl).symm j) = ix2 k j := funext fun a => Fin.ext (by
    match a with
    | ⟨0, _⟩ => exact lhs0_0 _ _
    | ⟨1, _⟩ => exact (lhs0_1 _ _).trans hj)
  have er : dot_S10000x128_S128x128_S10000x128_1_0_0_1_n_n.rhsIdx (ix2 k c) ((contrEquiv1 dot_S10000x128_S128x128_S10000x128_1_0_0_1_n_n 128 rfl rfl).symm j) = ix2 j c := funext fun a => Fin.ext (by
    match a with
    | ⟨0, _⟩ => exact (rhs0_0 _ _).trans hj
    | ⟨1, _⟩ => exact rhs0_1 _ _)
  rw [el, er]

/-! ## The second product's operand entries

The same four facts for the band's product with the support. -/

theorem lhs1_0 (i : S256x128.Idx) (q : dot_S256x10000_S10000x128_S256x128_1_0_0_1_n_n.contr.Idx) :
    (dot_S256x10000_S10000x128_S256x128_1_0_0_1_n_n.lhsIdx i q 0).val = (i 0).val := by
  unfold DotDims.lhsIdx
  rw [dif_neg (show ¬(0 : Fin S256x10000.rank) ∈ dot_S256x10000_S10000x128_S256x128_1_0_0_1_n_n.lhsBatch by decide), dif_pos (show (0 : Fin S256x10000.rank) ∈ dot_S256x10000_S10000x128_S256x128_1_0_0_1_n_n.lhsNonContracting by decide)]
  rfl
theorem lhs1_1 (i : S256x128.Idx) (q : dot_S256x10000_S10000x128_S256x128_1_0_0_1_n_n.contr.Idx) :
    (dot_S256x10000_S10000x128_S256x128_1_0_0_1_n_n.lhsIdx i q 1).val = (q ⟨0, by decide⟩).val :=
  dot_S256x10000_S10000x128_S256x128_1_0_0_1_n_n.lhsIdx_val_of_single rfl i q
theorem rhs1_0 (i : S256x128.Idx) (q : dot_S256x10000_S10000x128_S256x128_1_0_0_1_n_n.contr.Idx) :
    (dot_S256x10000_S10000x128_S256x128_1_0_0_1_n_n.rhsIdx i q 0).val = (q ⟨0, by decide⟩).val :=
  dot_S256x10000_S10000x128_S256x128_1_0_0_1_n_n.rhsIdx_val_of_single rfl i q
theorem rhs1_1 (i : S256x128.Idx) (q : dot_S256x10000_S10000x128_S256x128_1_0_0_1_n_n.contr.Idx) :
    (dot_S256x10000_S10000x128_S256x128_1_0_0_1_n_n.rhsIdx i q 1).val = (i 1).val := by
  unfold DotDims.rhsIdx
  rw [dif_neg (show ¬(1 : Fin S10000x128.rank) ∈ dot_S256x10000_S10000x128_S256x128_1_0_0_1_n_n.rhsBatch by decide), dif_pos (show (1 : Fin S10000x128.rank) ∈ dot_S256x10000_S10000x128_S256x128_1_0_0_1_n_n.rhsNonContracting by decide)]
  rfl

/-- The band's product with the support into the zero accumulator, at row p and column q: the sum over k of a p k * s k q. -/
theorem matmul1_apply (a : Vec Ideal S256x10000 .f32) (s : Vec Ideal S10000x128 .f32) (p : Fin 256) (q : Fin 128) :
    matmul (F := Ideal) (φ₁ := .f32) (φ₂ := .f32) dot_S256x10000_S10000x128_S256x128_1_0_0_1_n_n none a s (constant S256x128 .f32 0x00000000#32) (ix2 p q)
      = ∑ k : Fin 10000, a (ix2 p k) * s (ix2 k q) := by
  refine (Ideal.matmul_constant_zero_apply dot_S256x10000_S10000x128_S256x128_1_0_0_1_n_n none a s (ix2 p q)).trans ?_
  rw [← Equiv.sum_comp (contrEquiv1 dot_S256x10000_S10000x128_S256x128_1_0_0_1_n_n 10000 rfl rfl).symm]
  refine Finset.sum_congr rfl fun k _ => ?_
  have hk := contrEquiv1_symm_val dot_S256x10000_S10000x128_S256x128_1_0_0_1_n_n 10000 rfl rfl k
  have el : dot_S256x10000_S10000x128_S256x128_1_0_0_1_n_n.lhsIdx (ix2 p q) ((contrEquiv1 dot_S256x10000_S10000x128_S256x128_1_0_0_1_n_n 10000 rfl rfl).symm k) = ix2 p k := funext fun x => Fin.ext (by
    match x with
    | ⟨0, _⟩ => exact lhs1_0 _ _
    | ⟨1, _⟩ => exact (lhs1_1 _ _).trans hk)
  have er : dot_S256x10000_S10000x128_S256x128_1_0_0_1_n_n.rhsIdx (ix2 p q) ((contrEquiv1 dot_S256x10000_S10000x128_S256x128_1_0_0_1_n_n 10000 rfl rfl).symm k) = ix2 k q := funext fun x => Fin.ext (by
    match x with
    | ⟨0, _⟩ => exact (rhs1_0 _ _).trans hk
    | ⟨1, _⟩ => exact rhs1_1 _ _)
  rw [el, er]

/-- The second kernel's payload at row p, column q: the product's entry plus the bias row's entry, clipped at zero. -/
theorem k1_pay1_apply (a : Vec Ideal S256x10000 .f32) (s : Vec Ideal S10000x128 .f32) (b : Vec Ideal S1x128 .f32) (p : Fin 256) (q : Fin 128) :
    k1_pay1 (F := Ideal) a s b (ix2 p q)
      = max ((∑ k : Fin 10000, a (ix2 p k) * s (ix2 k q)) + b (ix2 (0 : Fin 1) q)) (Ideal.ofBits .f32 0x00000000#32) := by
  unfold k1_pay1
  rw [shapeCast_self, shapeCast_self, maximumf_apply, addf_apply, broadcast_apply, broadcastTo_1b_ab_apply, matmul1_apply]
  rfl

/-- The first kernel's stored value at an index is the support. -/
theorem out0_apply (x : Vec Ideal S10000x128 .f32) (w : Vec Ideal S128x128 .f32) (k : Fin 10000) (c : Fin 128) :
    out0 (F := Ideal) x w (ix2 k c) = Cert.Spec.support x w k c := by
  unfold out0
  rw [View.canon_unit_zero hz]
  simp only [View.ld_unit_zero (S := S10000x128) hz, View.ld_unit_zero (S := S128x128) hz]
  unfold k0_pay1
  exact matmul0_apply x w k c

/-- The second kernel's stored value at an index. -/
theorem out1_apply (s : Vec Ideal S10000x128 .f32) (b : Vec Ideal S1x128 .f32) (a : Vec Ideal S256x10000 .f32) (p : Fin 256) (q : Fin 128) :
    out1 (F := Ideal) s b a (ix2 p q)
      = max ((∑ k : Fin 10000, a (ix2 p k) * s (ix2 k q)) + b (ix2 (0 : Fin 1) q)) (Ideal.ofBits .f32 0x00000000#32) := by
  unfold out1
  rw [View.canon_unit_zero hz]
  simp only [View.ld_unit_zero (S := S256x10000) hz, View.ld_unit_zero (S := S10000x128) hz, View.ld_unit_zero (S := S1x128) hz]
  exact k1_pay1_apply a s b p q

/-- An output row of the second kernel depends on the same row of the band alone. -/
theorem rowLocal_ideal : RowLocal Ideal := by
  intro s b a a' j h
  obtain ⟨p, q, rfl⟩ : ∃ (p : Fin 256) (q : Fin 128), j = ix2 p q := ⟨j 0, j 1, eq_ix2 j⟩
  rw [out1_apply, out1_apply]
  refine congrArg (fun t => max (t + b (ix2 (0 : Fin 1) q)) (Ideal.ofBits .f32 0x00000000#32)) (Finset.sum_congr rfl fun k _ => ?_)
  rw [h (ix2 p k) rfl]

end Cert.KernelIdeal.Hand

end
-- ==== Proof.KIValue.lean ====
import proofs.«126797_g75393855914012_cont_9to1_m_802_10_alg».proof.Proof.Gen.KernelIdeal.Launch
import proofs.«126797_g75393855914012_cont_9to1_m_802_10_alg».proof.Proof.Gen.KernelIdeal.Skeleton
import proofs.«126797_g75393855914012_cont_9to1_m_802_10_alg».proof.Proof.Gen.KernelIdeal.Points
import proofs.«126797_g75393855914012_cont_9to1_m_802_10_alg».proof.Proof.KIFold
import proofs.«126797_g75393855914012_cont_9to1_m_802_10_alg».proof.Proof.KIPayload
import proofs.«126797_g75393855914012_cont_9to1_m_802_10_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The result array after the run is the layer

Region 0's one write-back leaves the support in its array; region 1 finds it there, beside the bias as a one-row matrix and the adjacency
matrix as launched. Point t of region 1 writes back rows 256 t to 256 t + 255 of the layer (the last point only the sixteen rows inside
the array), and the forty bands cover the 10000 rows. -/

open Idealize.ShloMosaic.ValueIdx

variable (m : (ℓ : Loc nD τ sig) → Buf (Elt Ideal) ℓ)

/-! ## What region 1 finds in its arrays -/

/-- The adjacency matrix reaches region 1 as launched. -/
theorem V2_arg1 (c : Dev nD) : V2 m c main_arg1 = m ((c.tc : Thread nD τ).loc main_arg1) :=
  (W2_of_ne m c main_arg1 (by decide)).trans (W1_of_ne m c main_arg1 (by decide))

/-- The host operation leaves the features and the weights as launched. -/
theorem V1_arg0 (c : Dev nD) : V1 m c main_arg0 = m ((c.tc : Thread nD τ).loc main_arg0) :=
  W1_of_ne m c main_arg0 (by decide)
theorem V1_arg2 (c : Dev nD) : V1 m c main_arg2 = m ((c.tc : Thread nD τ).loc main_arg2) :=
  W1_of_ne m c main_arg2 (by decide)

/-- Region 0 does not write the one-row bias. -/
theorem V2_bias (c : Dev nD) : V2 m c main_call0_v0 = V1 m c main_call0_v0 :=
  W2_of_ne m c main_call0_v0 (by decide)

/-- The support array reaches region 1 at what region 0's write-back left. -/
theorem V2_support (c : Dev nD) : V2 m c main_call0_v1 = (dat0 (V1 m) c).arrAt 2 cfg0.N :=
  W2_arr m c 2

/-- The host operation writes the bias as a one-row matrix. -/
theorem V1_bias_eq (c : Dev nD) :
    (V1 m c main_call0_v0 : S1x128.Idx → EReal)
      = shapeCast S1x128 (m ((c.tc : Thread nD τ).loc main_arg3) : S128.Idx → EReal) shapeCasts_S128_S1x128 := by
  show StableHlo.after hostOps0 (W0 m c) (Proc.devRef .tc main_call0_v0) = _
  after_results
  rfl

/-- Its entry (0, q) is the bias at q. -/
theorem V1_bias (c : Dev nD) (q : Fin 128) :
    (V1 m c main_call0_v0 : S1x128.Idx → EReal) (ix2 (0 : Fin 1) q) = (m ((c.tc : Thread nD τ).loc main_arg3) : S128.Idx → EReal) (ix1 q) := by
  rw [V1_bias_eq]
  exact shapeCast_a_1a_apply _ _ 0 q

section Region0
variable (V : (c : Dev nD) → (b : Ref sig .tc) → Buf (Elt Ideal) ((c : Thread nD τ).loc b))

/-- Region 0's windows are whole arrays: the one point's block of an input is the array. -/
theorem iblk0_0_eq (c : Dev nD) (t : Fin cfg0.N) : iblk0 V c 0 t = V c main_arg0 := by
  have hz : (fun a => win0_0.index t a * main_arg0.ty.shape.size a) = fun _ => 0 := funext fun a => Nat.zero_mul _
  exact Memref.read_access_unit_zero (Elt Ideal) main_arg0 hz (fun a => by rw [congrFun hz a]; simp) (V c main_arg0)

/-- Likewise the weights. -/
theorem iblk0_1_eq (c : Dev nD) (t : Fin cfg0.N) : iblk0 V c 1 t = V c main_arg2 := by
  have hz : (fun a => win0_1.index t a * main_arg2.ty.shape.size a) = fun _ => 0 := funext fun a => Nat.zero_mul _
  exact Memref.read_access_unit_zero (Elt Ideal) main_arg2 hz (fun a => by rw [congrFun hz a]; simp) (V c main_arg2)

/-- Region 0's one write-back writes the whole support array. -/
theorem flushed0_eq (c : Dev nD) (t : Fin cfg0.N) :
    (dat0 V c).flushed 2 t = ((cfg0.win 2).blk t).view.read (Elt Ideal) (out0 (F := Ideal) (V c main_arg0) (V c main_arg2)) := by
  have hz : (fun a => win0_2.index t a * main_call0_v1.ty.shape.size a) = fun _ => 0 := funext fun a => Nat.zero_mul _
  show (cfg0.win 2).cut (grid0.coords t) ((dat0 V c).after 2 t) = _
  rw [after0_2, iblk0_0_eq, iblk0_1_eq]
  exact (Memref.read_access_unit_zero (Elt Ideal) main_call0_v1 hz (fun a => by rw [congrFun hz a]; simp) _).symm

end Region0

section Region0b
variable (V : (c : Dev nD) → (b : Ref sig .tc) → Buf (Elt Ideal) ((c : Thread nD τ).loc b))

/-- After region 0 the support array holds the first kernel's store of the two arrays it read. -/
theorem arr0_support (c : Dev nD) :
    (dat0 V c).arrAt 2 cfg0.N = out0 (F := Ideal) (V c main_arg0) (V c main_arg2) :=
  (dat0 V c).arrAt_eq_of_cover 2 _ (fun t _ => flushed0_eq V c t) fun i =>
    ⟨t0_0, flush0_2 t0_0, by
      show i ∈ ((View.whole main_call0_v1).slice (win0_2.rect t0_0)).set
      rw [View.set_slice_whole, Rect.mem_set_unit]
      intro a
      have h0 : (i 0 : Nat) < 10000 := (i 0).isLt
      have h1 : (i 1 : Nat) < 128 := (i 1).isLt
      match a with
      | ⟨0, _⟩ =>
        show 0 * 10000 ≤ (i 0 : Nat) ∧ (i 0 : Nat) < 0 * 10000 + 10000
        omega
      | ⟨1, _⟩ =>
        show 0 * 128 ≤ (i 1 : Nat) ∧ (i 1 : Nat) < 0 * 128 + 128
        omega⟩

end Region0b

/-- Region 1 finds the support in its first window's array. -/
theorem V2_support_apply (c : Dev nD) (k : Fin 10000) (q : Fin 128) :
    (V2 m c main_call0_v1 : S10000x128.Idx → EReal) (ix2 k q)
      = Cert.Spec.support (m ((c.tc : Thread nD τ).loc main_arg0)) (m ((c.tc : Thread nD τ).loc main_arg2)) k q := by
  rw [V2_support, arr0_support, V1_arg0, V1_arg2]
  exact out0_apply _ _ k q

/-- The block indices and cut sizes of region 1's four windows at each of its forty points: the support and the bias sit at block
    (0, 0), the band and the result at block (t, 0); a band has 256 rows but for the last, which has the sixteen inside the array. -/
theorem idx_facts1 : ∀ t : Fin cfg1.N,
    win1_0.index t 0 = 0 ∧ win1_0.index t 1 = 0 ∧ win1_1.index t 0 = 0 ∧ win1_1.index t 1 = 0
    ∧ win1_2.index t 0 = t.val ∧ win1_2.index t 1 = 0 ∧ win1_3.index t 0 = t.val ∧ win1_3.index t 1 = 0
    ∧ win1_2.xsize (grid1.coords t) 0 = win1_3.xsize (grid1.coords t) 0
    ∧ win1_2.xsize (grid1.coords t) 1 = 10000
    ∧ win1_3.xsize (grid1.coords t) 1 = 128
    ∧ (t.val < 39 → win1_3.xsize (grid1.coords t) 0 = 256)
    ∧ (t.val = 39 → win1_3.xsize (grid1.coords t) 0 = 16) :=
  (by decide +kernel : ∀ t : Fin grid1.N, _)

/-! ## Region 1: a band of the layer per point, and the bands cover the rows -/

/-- The second kernel's store at row p of a band whose row p is row r of the adjacency matrix, against the support and the
    one-row bias, is the layer's entry at row r. -/
theorem out1_eq_G (s : Vec Ideal S10000x128 .f32) (b : Vec Ideal S1x128 .f32) (a : Vec Ideal S256x10000 .f32)
    (x : Cert.Spec.SX.Idx → EReal) (A : Cert.Spec.SA.Idx → EReal) (w : Cert.Spec.SW.Idx → EReal) (bb : Cert.Spec.SB.Idx → EReal)
    (p : Fin 256) (q : Fin 128) (r : Fin 10000)
    (hs : ∀ k q, s (ix2 k q) = Cert.Spec.support x w k q)
    (hb : ∀ q, b (ix2 (0 : Fin 1) q) = bb (ix1 q))
    (ha : ∀ k, a (ix2 p k) = A (ix2 r k)) :
    out1 (F := Ideal) s b a (ix2 p q) = Cert.Spec.G x A w bb (ix2 r q) := by
  rw [out1_apply, Cert.Spec.G_apply]
  unfold Cert.Spec.pre
  simp only [hs, hb, ha]

section Region1
variable (V : (c : Dev nD) → (b : Ref sig .tc) → Buf (Elt Ideal) ((c : Thread nD τ).loc b))

/-- The support's window is the whole array at every point. -/
theorem iblk1_0_eq (c : Dev nD) (t : Fin cfg1.N) : iblk1 V c 0 t = V c main_call0_v1 := by
  have hz : (fun a => win1_0.index t a * main_call0_v1.ty.shape.size a) = fun _ => 0 :=
    funext fun a => by
      obtain ⟨e0, e1, -⟩ := idx_facts1 t
      match a with
      | ⟨0, _⟩ => show win1_0.index t 0 * _ = 0; rw [e0, Nat.zero_mul]
      | ⟨1, _⟩ => show win1_0.index t 1 * _ = 0; rw [e1, Nat.zero_mul]
  exact Memref.read_access_unit_zero (Elt Ideal) main_call0_v1 hz (fun a => by rw [congrFun hz a]; simp) (V c main_call0_v1)

/-- So is the bias's. -/
theorem iblk1_1_eq (c : Dev nD) (t : Fin cfg1.N) : iblk1 V c 1 t = V c main_call0_v0 := by
  have hz : (fun a => win1_1.index t a * main_call0_v0.ty.shape.size a) = fun _ => 0 :=
    funext fun a => by
      obtain ⟨-, -, e0, e1, -⟩ := idx_facts1 t
      match a with
      | ⟨0, _⟩ => show win1_1.index t 0 * _ = 0; rw [e0, Nat.zero_mul]
      | ⟨1, _⟩ => show win1_1.index t 1 * _ = 0; rw [e1, Nat.zero_mul]
  exact Memref.read_access_unit_zero (Elt Ideal) main_call0_v0 hz (fun a => by rw [congrFun hz a]; simp) (V c main_call0_v0)

end Region1

section Region1b
variable (V : (c : Dev nD) → (b : Ref sig .tc) → Buf (Elt Ideal) ((c : Thread nD τ).loc b))

/-- Row p of the band at point t, when row 256 t + p is inside the array, is that row of the adjacency matrix. -/
theorem aband_row (c : Dev nD) (t : Fin cfg1.N) (p : Fin 256) (k r : Fin 10000) (hr : r.val = 256 * t.val + p.val) :
    aband V c t (ix2 p k) = (V c main_arg1 : S10000x10000.Idx → EReal) (ix2 r k) := by
  obtain ⟨-, -, -, -, e20, e21, -, -, ex0, ex1, -, hlo, hhi⟩ := idx_facts1 t
  have hN : cfg1.N = 40 := N_1
  have ht : t.val < 40 := hN ▸ t.isLt
  have hp : p.val < win1_2.xsize (grid1.coords t) 0 := by
    rw [ex0]
    rcases Nat.lt_or_ge t.val 39 with h | h
    · rw [hlo h]; exact p.isLt
    · have h39 : t.val = 39 := by omega
      rw [hhi h39]; have := r.isLt; omega
  have hmv : win1_2.moved (grid1.coords t) (ix2 p k) = true :=
    (win1_2.moved_iff _ _).mpr fun a => by
      match a with
      | ⟨0, _⟩ => exact hp
      | ⟨1, _⟩ => show k.val < win1_2.xsize (grid1.coords t) 1; rw [ex1]; exact k.isLt
  show win1_2.fill (grid1.coords t) zfill (iblk1 V c 2 t) (ix2 p k) = _
  unfold Window.fill
  rw [dif_pos hmv]
  unfold iblk1
  rw [View.read_apply]
  show V c main_arg1 _ = V c main_arg1 _
  congr 1
  funext a
  apply Fin.ext
  match a with
  | ⟨0, _⟩ => show win1_2.index t 0 * 256 + 1 * p.val = r.val; rw [e20, hr]; omega
  | ⟨1, _⟩ => show win1_2.index t 1 * 10000 + 1 * k.val = k.val; rw [e21]; omega

end Region1b

/-- What point t of region 1 writes back is band t of the layer: rows 256 t onward, as many as lie inside the array. -/
theorem flushed1_eq (c : Dev nD) (t : Fin cfg1.N) :
    (dat1 (F := Ideal) (V2 m) c).flushed 3 t
      = ((cfg1.win 3).blk t).view.read (Elt Ideal)
          (Cert.Spec.G (m ((c.tc : Thread nD τ).loc main_arg0)) (m ((c.tc : Thread nD τ).loc main_arg1))
            (m ((c.tc : Thread nD τ).loc main_arg2)) (m ((c.tc : Thread nD τ).loc main_arg3))) := by
  obtain ⟨-, -, -, -, -, -, e30, e31, -, -, ey1, hlo, hhi⟩ := idx_facts1 t
  have hN : cfg1.N = 40 := N_1
  have ht : t.val < 40 := hN ▸ t.isLt
  funext y
  have hy0 : (y 0).val < win1_3.xsize (grid1.coords t) 0 := (y 0).isLt
  have hy1 : (y 1).val < win1_3.xsize (grid1.coords t) 1 := (y 1).isLt
  rw [ey1] at hy1
  have hy0' : (y 0).val < 256 ∧ 256 * t.val + (y 0).val < 10000 := by
    rcases Nat.lt_or_ge t.val 39 with h | h
    · rw [hlo h] at hy0; omega
    · have h39 : t.val = 39 := by omega
      rw [hhi h39] at hy0; omega
  let p : Fin 256 := ⟨(y 0).val, hy0'.1⟩
  let q : Fin 128 := ⟨(y 1).val, hy1⟩
  let r : Fin 10000 := ⟨256 * t.val + (y 0).val, hy0'.2⟩
  have e1 : win1_3.xinj (grid1.coords t) y = ix2 p q :=
    funext fun a => by match a with | ⟨0, _⟩ => rfl | ⟨1, _⟩ => rfl
  have e2 : ((cfg1.win 3).blk t).view.emb y = ix2 r q := funext fun a => Fin.ext (by
    match a with
    | ⟨0, _⟩ => show win1_3.index t 0 * 256 + 1 * (y 0).val = 256 * t.val + (y 0).val; rw [e30]; omega
    | ⟨1, _⟩ => show win1_3.index t 1 * 128 + 1 * (y 1).val = (y 1).val; rw [e31]; omega)
  show (cfg1.win 3).cut (grid1.coords t) ((dat1 (V2 m) c).after 3 t) y = _
  rw [after1_3, View.read_apply, e2]
  show out1 (F := Ideal) (iblk1 (V2 m) c 0 t) (iblk1 (V2 m) c 1 t) (aband (V2 m) c t) (win1_3.xinj (grid1.coords t) y)
    = Cert.Spec.G (m ((c.tc : Thread nD τ).loc main_arg0)) (m ((c.tc : Thread nD τ).loc main_arg1))
        (m ((c.tc : Thread nD τ).loc main_arg2)) (m ((c.tc : Thread nD τ).loc main_arg3)) (ix2 r q)
  rw [e1, iblk1_0_eq, iblk1_1_eq]
  exact out1_eq_G _ _ _ _ _ _ _ p q r (fun k q => V2_support_apply m c k q)
    (fun q => by rw [V2_bias]; exact V1_bias m c q)
    (fun k => by rw [aband_row (V2 m) c t p k r rfl, V2_arg1])

/-- Row r of the result lies in the band of point r / 256: the first thirty-nine bands have 256 rows, the last the sixteen
    rows 9984 to 9999. -/
theorem cover_rows (i : S10000x128.Idx) :
    ∃ t : Fin cfg1.N, (cfg1.win 3).flush t = true ∧ i ∈ ((cfg1.win 3).blk t).view.set := by
  have hN : cfg1.N = 40 := N_1
  have h0 : (i 0 : Nat) < 10000 := (i 0).isLt
  have h1 : (i 1 : Nat) < 128 := (i 1).isLt
  have htlt : (i 0 : Nat) / 256 < cfg1.N := by rw [hN]; omega
  obtain ⟨-, -, -, -, -, -, e30, e31, -, -, ey1, hlo, hhi⟩ := idx_facts1 ⟨(i 0 : Nat) / 256, htlt⟩
  refine ⟨⟨(i 0 : Nat) / 256, htlt⟩, flush1_3 _, ?_⟩
  show i ∈ ((View.whole main_v0).slice (win1_3.rect ⟨(i 0 : Nat) / 256, htlt⟩)).set
  rw [View.set_slice_whole, Rect.mem_set_unit]
  intro a
  match a with
  | ⟨0, _⟩ =>
    show win1_3.index ⟨(i 0 : Nat) / 256, htlt⟩ 0 * 256 ≤ (i 0 : Nat)
      ∧ (i 0 : Nat) < win1_3.index ⟨(i 0 : Nat) / 256, htlt⟩ 0 * 256 + win1_3.xsize (grid1.coords ⟨(i 0 : Nat) / 256, htlt⟩) 0
    rw [e30]
    rcases Nat.lt_or_ge ((i 0 : Nat) / 256) 39 with h | h
    · rw [hlo h]; show (i 0 : Nat) / 256 * 256 ≤ (i 0 : Nat) ∧ (i 0 : Nat) < (i 0 : Nat) / 256 * 256 + 256; omega
    · have h39 : (i 0 : Nat) / 256 = 39 := by omega
      rw [hhi h39]; show (i 0 : Nat) / 256 * 256 ≤ (i 0 : Nat) ∧ (i 0 : Nat) < (i 0 : Nat) / 256 * 256 + 16; omega
  | ⟨1, _⟩ =>
    show win1_3.index ⟨(i 0 : Nat) / 256, htlt⟩ 1 * 128 ≤ (i 1 : Nat)
      ∧ (i 1 : Nat) < win1_3.index ⟨(i 0 : Nat) / 256, htlt⟩ 1 * 128 + win1_3.xsize (grid1.coords ⟨(i 0 : Nat) / 256, htlt⟩) 1
    rw [e31, ey1]; omega

/-- After the run the result array holds the layer of the four argument arrays. -/
theorem final_eq (c : Dev nD) :
    (dat1 (F := Ideal) (V2 m) c).arrAt 3 cfg1.N
      = Cert.Spec.G (m ((c.tc : Thread nD τ).loc main_arg0)) (m ((c.tc : Thread nD τ).loc main_arg1))
          (m ((c.tc : Thread nD τ).loc main_arg2)) (m ((c.tc : Thread nD τ).loc main_arg3)) :=
  (dat1 (F := Ideal) (V2 m) c).arrAt_eq_of_cover 3 _ (fun t _ => flushed1_eq m c t) cover_rows

end Cert.KernelIdeal.Hand

end
-- ==== Proof.KBBodies.lean ====
import proofs.«126797_g75393855914012_cont_9to1_m_802_10_alg».proof.Proof.Gen.Kernel.Launch
import proofs.«126797_g75393855914012_cont_9to1_m_802_10_alg».proof.Proof.Gen.Kernel.Skeleton
import proofs.«126797_g75393855914012_cont_9to1_m_802_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The two kernel bodies on whole staging buffers

The first kernel stores the feature product of its two input buffers into its output buffer; the second stores,
from the support buffer, the bias row and a band of adjacency rows, the band's product with the support plus the bias,
clipped at zero. Each is stated over arbitrary contents of its input buffers, so that it applies whatever a clipped
fetch left in the band's tail rows. -/

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rA : Rect S256x10000 := Rect.unit (s := S256x10000) ![0, 0] S256x10000.size inb_S256x10000_S256x10000_0_0
abbrev rO : Rect S256x128 := Rect.unit (s := S256x128) ![0, 0] S256x128.size inb_S256x128_S256x128_0_0

/-- What the first kernel leaves in its output buffer: its one store, of the feature product of the two inputs. -/
def out0 (x : Vec F S10000x128 .f32) (w : Vec F S128x128 .f32) : Vec F S10000x128 .f32 :=
  View.canon [⟨rX, k0_pay1 (View.ld x rX) (View.ld w rW)⟩]

theorem cover0 (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y

/-- What the second kernel leaves in its output buffer: its one store, of the band's rows against the support, plus the bias, clipped at zero. -/
def out1 (s : Vec F S10000x128 .f32) (b : Vec F S1x128 .f32) (a : Vec F S256x10000 .f32) : Vec F S256x128 .f32 :=
  View.canon [⟨rO, k1_pay1 (View.ld a rA) (View.ld s rX) (View.ld b rB)⟩]

theorem cover1 (p0 : Vec F S256x128 .f32) (y : S256x128.Idx) :
    ∃ pc ∈ ([⟨rO, p0⟩] : List (View.Piece (Elt F) S256x128 .f32)), y ∈ pc.1.set :=
  View.cover_of_tiled [⟨rO, p0⟩] S256x128.size (by rfl) y

set_option maxHeartbeats 1000000 in
/-- The first kernel's body: the inputs' buffers are left as found, the output's holds out0 of them. -/
theorem sound_kernel0 (c : Dev nD) (E : Set ℕ) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0 x0 x1)) -∗ K ⟨⟩))
      ⊢ wp frame (wpE (defs₀ (F := F)) Variants.none c none) E (cc0__support_kernel arg0 harg0 arg1 harg1 arg2 harg2) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

set_option maxHeartbeats 1000000 in
/-- The second kernel's body, at any grid point: the three inputs' buffers are left as found, the output's holds out1 of them. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S256x10000 .f32) (harg3 : arg3.IsWhole) (arg4 : Memref sig .tc .vmem S256x128 .f32) (harg4 : arg4.IsWhole)
    (x0 : Vec F S10000x128 .f32) (x1 : Vec F S1x128 .f32) (x2 : Vec F S256x10000 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1 x0 x1 x2)) -∗ K ⟨⟩))
      ⊢ wp frame (wpE (defs₀ (F := F)) Variants.none c none) E (cc1__spmm_kernel i arg1 harg1 arg2 harg2 arg3 harg3 arg4 harg4) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

end Cert.Kernel.Hand

end
-- ==== Proof.KBData0.lean ====
import proofs.«126797_g75393855914012_cont_9to1_m_802_10_alg».proof.Proof.Gen.Kernel.Launch
import proofs.«126797_g75393855914012_cont_9to1_m_802_10_alg».proof.Proof.Gen.Kernel.Skeleton
import proofs.«126797_g75393855914012_cont_9to1_m_802_10_alg».proof.Proof.Gen.Kernel.Points
import proofs.«126797_g75393855914012_cont_9to1_m_802_10_alg».proof.Proof.KBBodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The proof data of the two pipelines, at the contents V the region is entered with

Region 0 has one grid point and whole-array windows: its buffers hold the two input arrays and, after the body, their
feature product. Region 1 walks forty bands of 256 adjacency rows; the last band overhangs the array by 240 rows, so the
band's buffer is known only on the rows inside the array, and so is the output's. -/

section Regions
variable (V : (c : Dev nD) → (b : Ref sig .tc) → Buf (Elt F) ((c : Thread nD τ).loc b))

/-! ## Region 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Region 0's proof data: the arrays as found; after the body the inputs' buffers at their blocks and the output's at their feature product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Region 0's body obligation. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KBData1.lean ====
import proofs.«126797_g75393855914012_cont_9to1_m_802_10_alg».proof.Proof.Gen.Kernel.Launch
import proofs.«126797_g75393855914012_cont_9to1_m_802_10_alg».proof.Proof.Gen.Kernel.Skeleton
import proofs.«126797_g75393855914012_cont_9to1_m_802_10_alg».proof.Proof.Gen.Kernel.Points
import proofs.«126797_g75393855914012_cont_9to1_m_802_10_alg».proof.Proof.KBBodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # Region 1's proof data, the output's rows left unnamed

Forty bands of 256 adjacency rows; band 39 overhangs the 10000-row array by 240 rows, and the fetch leaves those buffer rows at words
nothing names. At word level the matrix product is not known to keep a row of the band apart from the others, so nothing is said of
what the body leaves in the output's buffer: the claim proved from these data, that the run ends with the arguments unchanged, does
not read the result array. -/

section Regions
variable (V : (c : Dev nD) → (b : Ref sig .tc) → Buf (Elt F) ((c : Thread nD τ).loc b))
variable [∀ e, Nonempty (Elt F e)]

/-- Window w's block at point t, read off its array as the region finds it: its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The word the data put in a band's rows past the array's end; nothing reads it. -/
def zfill : S256x10000.Idx → Elt F .f32 := fun _ => Scalar.ofBits .f32 0#32

/-- The band at point t as a whole buffer: the rows inside the array, the rest at zfill. -/
def aband (c : Dev nD) (t : Fin cfg1.N) : S256x10000.Idx → Elt F .f32 :=
  win1_2.fill (grid1.coords t) zfill (iblk1 V c 2 t)

/-- The output's window is the one whose buffer the data do not name. -/
abbrev fgt1 : Fin cfg1.W → Bool := fun | ⟨0, _⟩ => false | ⟨1, _⟩ => false | ⟨2, _⟩ => false | ⟨3, _⟩ => true

/-- Region 1's proof data: the arrays as found; after the body the support's and the bias's buffers at their blocks, the band's at
    the band, the output's not named. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => aband V c t
    | ⟨3, _⟩ => Dat.unnamed (cfg := cfg1) 3 t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = aband V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- The band's buffer is fetched at every point: the rows inside the array hold the band, the rest whatever d was. -/
theorem before1_2 (c : Dev nD) (t : Fin cfg1.N) (d) : (dat1 V c).before 2 t d = win1_2.fill (grid1.coords t) d (iblk1 V c 2 t) := by
  rw [(dat1 V c).before_fetched 2 t (fetch1_2 t) d]; rfl

/-- What the body is called with at point t, the windows one by one; the output's buffer at contents nothing names, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ X, owns (c : Thread nD τ) (st1_3 t) fullShare X))

/-- and what it returns: the band's buffer stated on the rows inside the array, the output's not at all. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (∃ d, owns (c : Thread nD τ) (st1_2 t) fullShare (win1_2.fill (grid1.coords t) d (win1_2.cut (grid1.coords t) ((dat1 V c).after 2 t))))
    ∗ (∃ X, owns (c : Thread nD τ) (st1_3 t) fullShare X))

set_option maxHeartbeats 1000000 in
/-- The body at any point: the support's and the bias's buffers are left at their blocks, the band's at what was found, the output's at
    whatever the body computed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t)
    (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  have h2 : win1_2.fill (grid1.coords t) d2 (win1_2.cut (grid1.coords t) (aband V c t)) = win1_2.fill (grid1.coords t) d2 (iblk1 V c 2 t) := by
    unfold aband; rw [Window.cut_fill]
  isplitl [H2]
  · iexists d2
    rw [h2]; iexact H2
  · iexists _; iexact H3

/-- Region 1's body obligation with the output's buffer handed over and taken back at contents nothing names. -/
theorem body_obligation1 (c : Dev nD) :
    BodyObligationLoose (dat1 (F := F) V c) (defs₀ (F := F)) Variants.none () Set.univ fgt1 := fun t => by
  rw [bigSep_W1, bigSep_W1]
  exact sound_body1 V c t

end Regions

end Cert.Kernel.Hand

end
-- ==== Proof.KBFold.lean ====
import proofs.«126797_g75393855914012_cont_9to1_m_802_10_alg».proof.Proof.Gen.Kernel.Launch
import proofs.«126797_g75393855914012_cont_9to1_m_802_10_alg».proof.Proof.Gen.Kernel.Skeleton
import proofs.«126797_g75393855914012_cont_9to1_m_802_10_alg».proof.Proof.Gen.Kernel.Points
import proofs.«126797_g75393855914012_cont_9to1_m_802_10_alg».proof.Proof.KBData0
import proofs.«126797_g75393855914012_cont_9to1_m_802_10_alg».proof.Proof.KBData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The buffers' contents at each boundary of the program

The program is one host operation (the bias as a one-row matrix), then the first kernel region (the support), then the second (the
layer). The contents of every buffer at each boundary are a fold from the launch memory: the host operation's result; then region 0's
arrays at what its one write-back leaves; then region 1's arrays at what its forty write-backs leave. No step writes an argument. -/

variable (m : (ℓ : Loc nD τ sig) → Buf (Elt F) ℓ)
variable [∀ e, Nonempty (Elt F e)]

/-- Core c's buffers at launch. -/
abbrev W0 : Dev nD → Valuation τ sig (Elt F) := fun c b => m (c, b)
/-- After the host operation (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The host operation writes the one-row bias buffer only. -/
theorem W1_of_ne (c : Dev nD) (b : Ref sig .tc) (hb : b ≠ main_call0_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_ne m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 2).trans (((dat1 (V2 m) c).arrAt_in 2 rfl _).trans (A_eq1 (V2 m) c 2))
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl
/-- The result array ends at what region 1's forty write-backs leave. -/
theorem W3_main_v0 (c : Dev nD) : W3 m c (Proc.devRef .tc main_v0) = (dat1 (V2 m) c).arrAt 3 cfg1.N := W3_arr m c 3

/-! ## The proof data family -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

end Cert.Kernel.Hand

end
-- ==== Proof.KBRun.lean ====
import proofs.«126797_g75393855914012_cont_9to1_m_802_10_alg».proof.Proof.Gen.Kernel.Launch
import proofs.«126797_g75393855914012_cont_9to1_m_802_10_alg».proof.Proof.Gen.Kernel.Skeleton
import proofs.«126797_g75393855914012_cont_9to1_m_802_10_alg».proof.Proof.Gen.Kernel.Points
import proofs.«126797_g75393855914012_cont_9to1_m_802_10_alg».proof.Proof.KBFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The run of the word-level program, the arguments unchanged

The program's three items as segments over thread states, and the launch over them. Region 0's data name everything. Region 1's say
nothing of the output's buffer, so at its exit the result array is held at some contents the write-backs may have left; the last thread
state keeps region 1's arrays in that form beside the buffers the region does not stage. Read against a final state: an input window's
array is never written, so the adjacency matrix is as region 1 found it; the other three arguments are among the buffers it does not
stage; and before region 1 nothing wrote an argument. -/

variable (m : (ℓ : Loc nD τ sig) → Buf (Elt F) ℓ) (ρ : Dev nD → PrngReg)
variable [∀ e, Nonempty (Elt F e)]

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

/-- The relational proof data: region 0's exact data read as relations; region 1's with the output's window forgotten. -/
def rdats : (p : Fin 2) → (c : Dev nD) → Pipeline.RDat τ (Elt F) Unit ℕ (UR sig nD τ) ℕ (Pipeline.pin (pcfgs (F := F)) adm p) c
  | ⟨0, _⟩ => fun c => (dat0 (V1 m) c).toR
  | ⟨1, _⟩ => fun c => (dat1 (V2 m) c).toRForget fgt1

/-- The last thread state without the owes: region 1's arrays at some contents its write-backs may have left, the unscoped buffers it
    does not stage as it found them, the generator register at some state. -/
abbrev Tₙ (c : Dev nD) : sProp 𝕄 :=
  iprop((rdats m 1 c).arraysAt cfg1.N
    ∗ Pipeline.unscopedRest (Ix := Unit) (Name := ℕ) (U := UR sig nD τ) (Lvl := ℕ) spec1 c (V2 m c) ∗ ∃ r, prngReg c r)

set_option backward.isDefEq.respectTransparency.types false in
/-- Region 0 over the thread state: entered with every unscoped buffer at W1, left at W2. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((dat0 (V1 m) c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    rw [show (rdats m 0 c).arraysAt (Pipeline.pin (pcfgs (F := F)) adm 0).N = ((pdats m 0 c).arrays ((pdats m 0 c).arrAt · cfg0.N) : sProp 𝕄)
      from (pdats m 0 c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1 over the thread state: entered with every unscoped buffer at W2, left with its arrays at some contents its write-backs may
    have left and every buffer it does not stage as found. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).toRForget
  hwaits := Pipeline.RDat.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      ((dat1 (V2 m) c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-- The program's three items in order. -/
abbrev segs : List (Pipeline.RDat.Seg (pcfgs (F := F)) adm (rdats m) () defs₀ 𝒱₀ L lv) :=
  [ .host (hseg hostOps0 hostOps0_sub hostOps0_fresh (W0 m)),
    .region (reg0 m),
    .region (reg1 m) ]
theorem main_run (c : Dev nD) : main (F := F) c = Pipeline.RDat.Seg.run (segs m) := (main_chain c).trans (by chain_rfl)

/-- Before region 1 nothing wrote an argument. -/
theorem V2_main_arg0 (c : Dev nD) : V2 m c main_arg0 = m ((c : Thread nD τ).loc main_arg0) :=
  ((W2_arr m c 0).trans (((dat0 (V1 m) c).arrAt_in 0 rfl _).trans (A_eq0 (V1 m) c 0))).trans (W1_of_ne m c main_arg0 (by decide))
theorem V2_main_arg1 (c : Dev nD) : V2 m c main_arg1 = m ((c : Thread nD τ).loc main_arg1) :=
  (W2_of_ne m c main_arg1 (by decide)).trans (W1_of_ne m c main_arg1 (by decide))
theorem V2_main_arg2 (c : Dev nD) : V2 m c main_arg2 = m ((c : Thread nD τ).loc main_arg2) :=
  ((W2_arr m c 1).trans (((dat0 (V1 m) c).arrAt_in 1 rfl _).trans (A_eq0 (V1 m) c 1))).trans (W1_of_ne m c main_arg2 (by decide))
theorem V2_main_arg3 (c : Dev nD) : V2 m c main_arg3 = m ((c : Thread nD τ).loc main_arg3) :=
  (W2_of_ne m c main_arg3 (by decide)).trans (W1_of_ne m c main_arg3 (by decide))

set_option backward.isDefEq.respectTransparency.types false in
/-- Every weakly fair execution of the program ends, and every final state has the four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s =>
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => by
      iintro ⟨⟨Ha, Hrest, -⟩, HSI⟩
      ihave Hr := (Pipeline.RDat.arrays_read (pcfgs (F := F)) adm (rdats m) (p := 1) launch1.arr_whole c cfg1.N s') $$ [Ha HSI]
      · isplitl [Ha] <;> iassumption
      icases Hr with ⟨%hA, HSI⟩
      unfold Pipeline.unscopedRest
      ihave Hr2 := (pointsTo_read_all _ (fun b : Ref sig .tc => ((c.tc : Thread nD τ).loc b)) (fun b => V2 m c b) s') $$ [Hrest HSI]
      · isplitl [Hrest] <;> iassumption
      icases Hr2 with ⟨%hR, HSI⟩
      imodintro
      isplitr
      · ipureintro
        have h1 := hA 2
        rw [(rdats m 1 c).ArrAt_in 2 rfl] at h1
        exact ⟨(hR main_arg0 (by decide)).trans (V2_main_arg0 m c),
          h1.trans (V2_main_arg1 m c),
          (hR main_arg2 (by decide)).trans (V2_main_arg2 m c),
          (hR main_arg3 (by decide)).trans (V2_main_arg3 m c)⟩
      · iexact HSI)
    (hQ := fun s h c => h c)

end Cert.Kernel.Hand

end
-- ==== Proof.lean ====
/- The certificate of a graph-convolution layer, max (adj * (input * W) + b) 0, computed by two kernels — the feature product
   input * W in one step, then forty bands of 256 adjacency rows against it with the bias added and the clip fused — against the same
   layer written with two matrix products on the host.

   Over the extended reals both programs compute, at row r and column c, the clip at zero of the sum over k of adj r k * (sum over j of
   input k j * W j c) plus b c: the same sums in the same order, so no law of the extended reals beyond reading both sides at an index is
   needed, and the precondition is never opened. The last band overhangs the 10000-row array by 240 rows; an output row reads the same
   row of the band alone, so the words a clipped fetch leaves in the band's tail reach no row that is written back. At word level nothing
   is claimed of the result array: the run ends and leaves the four arguments as launched. -/
import proofs.«126797_g75393855914012_cont_9to1_m_802_10_alg».proof.Defs
import proofs.«126797_g75393855914012_cont_9to1_m_802_10_alg».proof.Proof.Gen.Kernel
import proofs.«126797_g75393855914012_cont_9to1_m_802_10_alg».proof.Proof.Gen.KernelIdeal
import proofs.«126797_g75393855914012_cont_9to1_m_802_10_alg».proof.Proof.Gen.ReferenceIdeal
import proofs.«126797_g75393855914012_cont_9to1_m_802_10_alg».proof.Proof.Gen.Pre_finite_inputs
import proofs.«126797_g75393855914012_cont_9to1_m_802_10_alg».proof.Proof.Gen.ReferenceIdeal.Run
import proofs.«126797_g75393855914012_cont_9to1_m_802_10_alg».proof.Proof.Gen.ReferenceIdeal.Read
import proofs.«126797_g75393855914012_cont_9to1_m_802_10_alg».proof.Proof.RefValue
import proofs.«126797_g75393855914012_cont_9to1_m_802_10_alg».proof.Proof.KIRun
import proofs.«126797_g75393855914012_cont_9to1_m_802_10_alg».proof.Proof.KIPayload
import proofs.«126797_g75393855914012_cont_9to1_m_802_10_alg».proof.Proof.KIValue
import proofs.«126797_g75393855914012_cont_9to1_m_802_10_alg».proof.Proof.KBRun
import Idealize.ShloMosaic.Adequacy
import Idealize.ShloMosaic.Init

noncomputable section

namespace Cert.Proof

open Idealize.ShloMosaic Idealize.SL.Sem

/-- The word-level program runs to the end and leaves its arguments unchanged. -/
theorem frame_p : Cert.frame_Kernel := fun m ρ _ => Cert.Kernel.Hand.frame (F := Bits) m ρ

/-- So does the idealized program: its value run, the result dropped. -/
theorem frame_pi : Cert.frame_KernelIdeal := fun m ρ _ =>
  (θ_run Cert.KernelIdeal.defs _ _).mono (fun _ h c => (h c).2)
    (Cert.KernelIdeal.Hand.run_main (F := Ideal) m ρ Cert.KernelIdeal.Hand.rowLocal_ideal)

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Over the extended reals both programs end with the layer of the shared arguments in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.final_eq m c), (h c).2⟩)
      (Cert.KernelIdeal.Hand.run_main (F := Ideal) m ρ Cert.KernelIdeal.Hand.rowLocal_ideal)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.RefValue.run_term_eq_G _ _ _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
